-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S256x64 : Shape := ⟨2, ![256, 64]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_

variable [Facts]

def fn_part1 {F : FTy → Type} [FloatOps F] (main_v13 : IVec S_ 1) (main_v16 : IVec S256x64 1) : IVec S_ 1 :=
  let main_c_5 : IVec S_ 1 := constantI S_ 1 1#1
  let main_v17 : IVec S_ 1 := (fun x v => Host.reduce IntOp.andi x v reducesTo_S256x64_S_d0_1 h_S_) main_v16 main_c_5
  let main_v18 : IVec S_ 1 := andi main_v13 main_v17
  main_v18

def fn {F : FTy → Type} [FloatOps F] (main_arg0 : FVec F S8192x256 .f32) (main_arg1 : FVec F S256x64 .f32) (main_arg2 : FVec F S256x64 .f32) (main_arg3 : FVec F S256x64 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S256x64 .f32 := Host.absf main_arg1
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S256x64 .f32 := Host.absf main_arg2
  let main_cst_2 : FVec F S_ .f32 := constant S_ .f32 0x7F800000#32
  let main_v10 : FVec F S256x64 .f32 := broadcastInDim S256x64 ![] bcast_S_S256x64 main_cst_2
  let main_v11 : IVec S256x64 1 := cmpf .olt main_v9 main_v10
  let main_c_3 : IVec S_ 1 := constantI S_ 1 1#1
  let main_v12 : IVec S_ 1 := (fun x v => Host.reduce IntOp.andi x v reducesTo_S256x64_S_d0_1 h_S_) main_v11 main_c_3
  let main_v13 : IVec S_ 1 := andi main_v8 main_v12
  let main_v14 : FVec F S256x64 .f32 := Host.absf main_arg3
  let main_cst_4 : FVec F S_ .f32 := constant S_ .f32 0x7F800000#32
  let main_v15 : FVec F S256x64 .f32 := broadcastInDim S256x64 ![] bcast_S_S256x64 main_cst_4
  let main_v16 : IVec S256x64 1 := cmpf .olt main_v14 main_v15
  fn_part1 (F := F) main_v13 main_v16
-- ==== Kernel.lean ====
abbrev S8192x256 : Shape := ⟨2, ![8192, 256]⟩
abbrev S256x64 : Shape := ⟨2, ![256, 64]⟩
abbrev S8192x64 : Shape := ⟨2, ![8192, 64]⟩
abbrev S1024x256 : Shape := ⟨2, ![1024, 256]⟩
abbrev S1024x64 : Shape := ⟨2, ![1024, 64]⟩
abbrev S64x8192 : Shape := ⟨2, ![64, 8192]⟩
abbrev S256x8192 : Shape := ⟨2, ![256, 8192]⟩
abbrev S256 : Shape := ⟨1, ![256]⟩
abbrev S256x1 : Shape := ⟨2, ![256, 1]⟩

abbrev nBuf : Space → Nat
  | .hbm => 9
  | .vmem => 17
  | .smem => 0
  | _ => 0

abbrev bufTy : (tb : Table) → Fin (tcTables nBuf tb) → BufTy
  | .hbm, ⟨0, _⟩ => ⟨S8192x256, .f32⟩
  | .hbm, ⟨1, _⟩ => ⟨S256x64, .f32⟩
  | .hbm, ⟨2, _⟩ => ⟨S256x64, .f32⟩
  | .hbm, ⟨3, _⟩ => ⟨S256x64, .f32⟩
  | .hbm, ⟨4, _⟩ => ⟨S8192x64, .f32⟩
  | .hbm, ⟨5, _⟩ => ⟨S8192x64, .f32⟩
  | .hbm, ⟨6, _⟩ => ⟨S8192x64, .bf16⟩
  | .hbm, ⟨7, _⟩ => ⟨S64x8192, .f32⟩
  | .hbm, ⟨8, _⟩ => ⟨S8192x64, .f32⟩
  | .local _ .vmem, ⟨0, _⟩ => ⟨S1024x256, .f32⟩
  | .local _ .vmem, ⟨1, _⟩ => ⟨S1024x256, .f32⟩
  | .local _ .vmem, ⟨2, _⟩ => ⟨S256x64, .f32⟩
  | .local _ .vmem, ⟨3, _⟩ => ⟨S256x64, .f32⟩
  | .local _ .vmem, ⟨4, _⟩ => ⟨S256x64, .f32⟩
  | .local _ .vmem, ⟨5, _⟩ => ⟨S1024x64, .f32⟩
  | .local _ .vmem, ⟨6, _⟩ => ⟨S1024x64, .f32⟩
  | .local _ .vmem, ⟨7, _⟩ => ⟨S1024x64, .f32⟩
  | .local _ .vmem, ⟨8, _⟩ => ⟨S1024x64, .f32⟩
  | .local _ .vmem, ⟨9, _⟩ => ⟨S1024x64, .bf16⟩
  | .local _ .vmem, ⟨10, _⟩ => ⟨S1024x64, .bf16⟩
  | .local _ .vmem, ⟨11, _⟩ => ⟨S256x64, .f32⟩
  | .local _ .vmem, ⟨12, _⟩ => ⟨S256x64, .f32⟩
  | .local _ .vmem, ⟨13, _⟩ => ⟨S64x8192, .f32⟩
  | .local _ .vmem, ⟨14, _⟩ => ⟨S8192x64, .bf16⟩
  | .local _ .vmem, ⟨15, _⟩ => ⟨S256x64, .f32⟩
  | .local _ .vmem, ⟨16, _⟩ => ⟨S256x64, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg3_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem3_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x8192 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S8192x64 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S1024x256_S1024x256_0_0 : ∀ a, (![0, 0] : Fin 2 → Nat) a + S1024x256.size a ≤ S1024x256.size a
  h_S1024x256 : 0 < S1024x256.numel
  inb_S256x64_S256x64_0_0 : ∀ a, (![0, 0] : Fin 2 → Nat) a + S256x64.size a ≤ S256x64.size a
  h_S256x64 : 0 < S256x64.numel
  inb_S1024x64_S1024x64_0_0 : ∀ a, (![0, 0] : Fin 2 → Nat) a + S1024x64.size a ≤ S1024x64.size a
  h_S1024x64 : 0 < S1024x64.numel
  bitsLt_bf16_f32 : FTy.bits .bf16 < FTy.bits .f32
  packedbf16_S1024x64_S1024x64_0_0 : (Rect.unit (s := S1024x64) ![0, 0] S1024x64.size inb_S1024x64_S1024x64_0_0).PackedRows (EltTy.packing .bf16)
  transposes_S8192x64_S64x8192_1_0 : S8192x64.Transposes [1, 0] S64x8192
  shapeCasts_S256x64_S256x64 : S256x64.ShapeCasts S256x64
  inb_S64x8192_S64x8192_0_0 : ∀ a, (![0, 0] : Fin 2 → Nat) a + S64x8192.size a ≤ S64x8192.size a
  h_S64x8192 : 0 < S64x8192.numel
  shapeCasts_S64x8192_S64x8192 : S64x8192.ShapeCasts S64x8192
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  reduces_S256x8192_S256 : S256x8192.Reduces [1] S256
  shapeCasts_S256_S256x1 : S256.ShapeCasts S256x1
  broadcasts_S256x1_S256x8192 : S256x1.Broadcasts S256x8192
  broadcasts_S256x1_S256x64 : S256x1.Broadcasts S256x64
  dot_S1024x256_S256x64_S1024x64_1_0_0_1_n_n_wf : DotDims.WF S1024x256 S256x64 S1024x64 [1] [0] [0] [1] [] []
  dot_S256x64_S64x8192_S256x8192_1_0_0_1_n_n_wf : DotDims.WF S256x64 S64x8192 S256x8192 [1] [0] [0] [1] [] []
  dot_S256x8192_S8192x64_S256x64_1_0_0_1_n_n_wf : DotDims.WF S256x8192 S8192x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x64.size a ≤ S256x64.size a
  hwx0_2 : ∀ i : grid0.Coords, EltTy.bits .f32 = 32 ∨ (Rect.block (s := S256x64) S256x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x64.size a ≤ S256x64.size a
  hwx0_3 : ∀ i : grid0.Coords, EltTy.bits .f32 = 32 ∨ (Rect.block (s := S256x64) S256x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x64.size a ≤ S8192x64.size a
  hwx0_4 : ∀ i : grid0.Coords, EltTy.bits .f32 = 32 ∨ (Rect.block (s := S8192x64) S1024x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x64.size a ≤ S8192x64.size a
  hwx0_5 : ∀ i : grid0.Coords, EltTy.bits .f32 = 32 ∨ (Rect.block (s := S8192x64) S1024x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x64.size a ≤ S8192x64.size a
  hwx0_6 : ∀ i : grid0.Coords, EltTy.bits .bf16 = 32 ∨ (Rect.block (s := S8192x64) S1024x64.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x64.size a ≤ S8192x64.size a
  hwx1_0 : ∀ i : grid1.Coords, EltTy.bits .f32 = 32 ∨ (Rect.block (s := S8192x64) S256x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x8192.size a ≤ S64x8192.size a
  hwx1_1 : ∀ i : grid1.Coords, EltTy.bits .f32 = 32 ∨ (Rect.block (s := S64x8192) S64x8192.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S8192x64.size a ≤ S8192x64.size a
  hwx1_2 : ∀ i : grid1.Coords, EltTy.bits .bf16 = 32 ∨ (Rect.block (s := S8192x64) S8192x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x64.size a ≤ S8192x64.size a
  hwx1_3 : ∀ i : grid1.Coords, EltTy.bits .f32 = 32 ∨ (Rect.block (s := S8192x64) S256x64.size (cc1_transform_3 i) (hinb1_3 i)).WholeWords (EltTy.packing .f32)

variable [Facts₀]

def dot_S1024x256_S256x64_S1024x64_1_0_0_1_n_n : DotDims S1024x256 S256x64 S1024x64 where
  lhsContracting := [1]
  rhsContracting := [0]
  lhsNonContracting := [0]
  rhsNonContracting := [1]
  lhsBatch := []
  rhsBatch := []
  wf := dot_S1024x256_S256x64_S1024x64_1_0_0_1_n_n_wf
def dot_S256x64_S64x8192_S256x8192_1_0_0_1_n_n : DotDims S256x64 S64x8192 S256x8192 where
  lhsContracting := [1]
  rhsContracting := [0]
  lhsNonContracting := [0]
  rhsNonContracting := [1]
  lhsBatch := []
  rhsBatch := []
  wf := dot_S256x64_S64x8192_S256x8192_1_0_0_1_n_n_wf
def dot_S256x8192_S8192x64_S256x64_1_0_0_1_n_n : DotDims S256x8192 S8192x64 S256x64 where
  lhsContracting := [1]
  rhsContracting := [0]
  lhsNonContracting := [0]
  rhsNonContracting := [1]
  lhsBatch := []
  rhsBatch := []
  wf := dot_S256x8192_S8192x64_S256x64_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S1024x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S1024x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_2) S1024x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v0_0) S256x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S64x8192.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0_2) S8192x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S256x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8192x256 : Shape := ⟨2, ![8192, 256]⟩
abbrev S256x64 : Shape := ⟨2, ![256, 64]⟩
abbrev S8192x64 : Shape := ⟨2, ![8192, 64]⟩
abbrev S64x8192 : Shape := ⟨2, ![64, 8192]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩

abbrev nBuf : Space → Nat
  | .hbm => 29
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S256x64, .f32⟩
  | .hbm, ⟨2, _⟩ => ⟨S256x64, .f32⟩
  | .hbm, ⟨3, _⟩ => ⟨S256x64, .f32⟩
  | .hbm, ⟨4, _⟩ => ⟨S8192x64, .f32⟩
  | .hbm, ⟨5, _⟩ => ⟨S8192x64, .f32⟩
  | .hbm, ⟨6, _⟩ => ⟨S8192x64, .f32⟩
  | .hbm, ⟨7, _⟩ => ⟨S64x8192, .f32⟩
  | .hbm, ⟨8, _⟩ => ⟨S8192x8192, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S8192x8192, .f32⟩
  | .hbm, ⟨13, _⟩ => ⟨S8192x8192, .f32⟩
  | .hbm, ⟨14, _⟩ => ⟨S_, .f32⟩
  | .hbm, ⟨15, _⟩ => ⟨S8192, .f32⟩
  | .hbm, ⟨16, _⟩ => ⟨S_, .f32⟩
  | .hbm, ⟨17, _⟩ => ⟨S8192, .f32⟩
  | .hbm, ⟨18, _⟩ => ⟨S8192, .f32⟩
  | .hbm, ⟨19, _⟩ => ⟨S8192x1, .f32⟩
  | .hbm, ⟨20, _⟩ => ⟨S8192x8192, .f32⟩
  | .hbm, ⟨21, _⟩ => ⟨S8192x8192, .f32⟩
  | .hbm, ⟨22, _⟩ => ⟨S8192x8192, .f32⟩
  | .hbm, ⟨23, _⟩ => ⟨S_, .f32⟩
  | .hbm, ⟨24, _⟩ => ⟨S8192, .f32⟩
  | .hbm, ⟨25, _⟩ => ⟨S8192x1, .f32⟩
  | .hbm, ⟨26, _⟩ => ⟨S8192x8192, .f32⟩
  | .hbm, ⟨27, _⟩ => ⟨S8192x8192, .f32⟩
  | .hbm, ⟨28, _⟩ => ⟨S8192x64, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]

class Facts₀ : Prop where
  transposes_S8192x64_S64x8192_1_0 : S8192x64.Transposes [1, 0] S64x8192
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  dot_S8192x256_S256x64_S8192x64_1_0_0_1_n_n_wf : DotDims.WF S8192x256 S256x64 S8192x64 [1] [0] [0] [1] [] []
  dot_S8192x64_S64x8192_S8192x8192_1_0_0_1_n_n_wf : DotDims.WF S8192x64 S64x8192 S8192x8192 [1] [0] [0] [1] [] []
  dot_S8192x8192_S8192x64_S8192x64_1_0_0_1_n_n_wf : DotDims.WF S8192x8192 S8192x64 S8192x64 [1] [0] [0] [1] [] []

variable [Facts₀]

def dot_S8192x256_S256x64_S8192x64_1_0_0_1_n_n : DotDims S8192x256 S256x64 S8192x64 where
  lhsContracting := [1]
  rhsContracting := [0]
  lhsNonContracting := [0]
  rhsNonContracting := [1]
  lhsBatch := []
  rhsBatch := []
  wf := dot_S8192x256_S256x64_S8192x64_1_0_0_1_n_n_wf
def dot_S8192x64_S64x8192_S8192x8192_1_0_0_1_n_n : DotDims S8192x64 S64x8192 S8192x8192 where
  lhsContracting := [1]
  rhsContracting := [0]
  lhsNonContracting := [0]
  rhsNonContracting := [1]
  lhsBatch := []
  rhsBatch := []
  wf := dot_S8192x64_S64x8192_S8192x8192_1_0_0_1_n_n_wf
def dot_S8192x8192_S8192x64_S8192x64_1_0_0_1_n_n : DotDims S8192x8192 S8192x64 S8192x64 where
  lhsContracting := [1]
  rhsContracting := [0]
  lhsNonContracting := [0]
  rhsNonContracting := [1]
  lhsBatch := []
  rhsBatch := []
  wf := dot_S8192x8192_S8192x64_S8192x64_1_0_0_1_n_n_wf

class Facts : Prop extends Facts₀ where

variable [Facts]
-- ==== Proof.Spec.lean ====
import Idealize.ShloMosaic.PureOps.Ideal
import Idealize.ShloMosaic.Lib.ValueIdx

noncomputable section

namespace Cert.Spec

open Idealize.ShloMosaic Idealize.ShloMosaic.ValueIdx

/-- One entry of a projection `x · W`: row `r` of `x` against column `e` of `W`, summed over the 256 features. -/
def proj (x : (⟨2, ![8192, 256]⟩ : Shape).Idx → EReal) (w : (⟨2, ![256, 64]⟩ : Shape).Idx → EReal)
    (r : Fin 8192) (e : Fin 64) : EReal :=
  ∑ k : Fin 256, x (ix2 r k) * w (ix2 k e)

/-- The projection as an array over the 8192 × 64 index set. -/
def projArr (x : (⟨2, ![8192, 256]⟩ : Shape).Idx → EReal) (w : (⟨2, ![256, 64]⟩ : Shape).Idx → EReal) :
    (⟨2, ![8192, 64]⟩ : Shape).Idx → EReal :=
  fun i => proj x w ⟨(i 0).val, (i 0).isLt⟩ ⟨(i 1).val, (i 1).isLt⟩

/-- One output entry of attention as the kernel arranges it: the query row `q` is scaled by 1/8 before the scores
    `S j = ∑ e, q e · (1/8) · k j e` are taken, the row maximum `M` is subtracted, and the weighted sum of the
    value column `∑ j, exp (S j − M) · v j` is divided ONCE by `∑ j, exp (S j − M)`. -/
def softScaled {E J : Type} [Fintype E] [Fintype J] (q : E → EReal) (k : J → E → EReal) (v : J → EReal) : EReal :=
  Ideal.div
    (∑ j, Ideal.exp ((∑ e, q e * ((1 / 8 : ℝ) : EReal) * k j e)
        - (Finset.univ : Finset J).fold max (⊥ : EReal) (fun j' => ∑ e, q e * ((1 / 8 : ℝ) : EReal) * k j' e)) * v j)
    (∑ j, Ideal.exp ((∑ e, q e * ((1 / 8 : ℝ) : EReal) * k j e)
        - (Finset.univ : Finset J).fold max (⊥ : EReal) (fun j' => ∑ e, q e * ((1 / 8 : ℝ) : EReal) * k j' e)))

/-- The same entry as the reference arranges it: the scores `S' j = (∑ e, q e · k j e) / 8`, the maximum taken once more
    against `−∞`, every weight `exp (S' j − M')` divided by the row's sum BEFORE it multiplies the value column. -/
def softNormalized {E J : Type} [Fintype E] [Fintype J] (q : E → EReal) (k : J → E → EReal) (v : J → EReal) : EReal :=
  ∑ j, Ideal.div
      (Ideal.exp (Ideal.div (∑ e, q e * k j e) ((8 : ℝ) : EReal)
        - max (⊥ : EReal) ((Finset.univ : Finset J).fold max (⊥ : EReal)
            (fun j' => Ideal.div (∑ e, q e * k j' e) ((8 : ℝ) : EReal)))))
      (∑ j', Ideal.exp (Ideal.div (∑ e, q e * k j' e) ((8 : ℝ) : EReal)
        - max (⊥ : EReal) ((Finset.univ : Finset J).fold max (⊥ : EReal)
            (fun j'' => Ideal.div (∑ e, q e * k j'' e) ((8 : ℝ) : EReal))))) * v j

/-- The kernel's attention output as an array, from the query rows `Q`, the TRANSPOSED key array `KT` and the value rows `V`. -/
def attnArr (Q : (⟨2, ![8192, 64]⟩ : Shape).Idx → EReal) (KT : (⟨2, ![64, 8192]⟩ : Shape).Idx → EReal)
    (V : (⟨2, ![8192, 64]⟩ : Shape).Idx → EReal) : (⟨2, ![8192, 64]⟩ : Shape).Idx → EReal :=
  fun i => softScaled (fun e : Fin 64 => Q (ix2 (⟨(i 0).val, (i 0).isLt⟩ : Fin 8192) e))
    (fun (j : Fin 8192) (e : Fin 64) => KT (ix2 e j))
    (fun j : Fin 8192 => V (ix2 j (⟨(i 1).val, (i 1).isLt⟩ : Fin 64)))

end Cert.Spec

end
-- ==== Proof.Region0.lean ====
import proofs.«405609_j35665408426211_3_alg».proof.Proof.Gen.KernelIdeal.Frame
import proofs.«405609_j35665408426211_3_alg».proof.Proof.Spec
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Projections

open Cert.KernelIdeal Cert.KernelIdeal.Gen Cert.Spec

variable (V : (c : Dev nD) → (b : Ref sig .tc) → Buf (Elt Ideal) ((c : Thread nD τ).loc b))

theorem hz : (![0, 0] : Fin 2 → Nat) = fun _ => 0 := funext fun a => by fin_cases a <;> rfl

/-! ## The contraction of a 1024 × 256 block against a 256 × 64 matrix, entry by entry -/

theorem lhs_axis0 (i : S1024x64.Idx) (q : dot_S1024x256_S256x64_S1024x64_1_0_0_1_n_n.contr.Idx) :
    (dot_S1024x256_S256x64_S1024x64_1_0_0_1_n_n.lhsIdx i q 0).val = (i 0).val := by
  unfold DotDims.lhsIdx
  rw [dif_neg (show ¬(0 : Fin S1024x256.rank) ∈ dot_S1024x256_S256x64_S1024x64_1_0_0_1_n_n.lhsBatch by decide), dif_pos (show (0 : Fin S1024x256.rank) ∈ dot_S1024x256_S256x64_S1024x64_1_0_0_1_n_n.lhsNonContracting by decide)]
  rfl
theorem lhs_axis1 (i : S1024x64.Idx) (q : dot_S1024x256_S256x64_S1024x64_1_0_0_1_n_n.contr.Idx) :
    (dot_S1024x256_S256x64_S1024x64_1_0_0_1_n_n.lhsIdx i q 1).val = (q ⟨0, by decide⟩).val :=
  dot_S1024x256_S256x64_S1024x64_1_0_0_1_n_n.lhsIdx_val_of_single rfl i q
theorem rhs_axis0 (i : S1024x64.Idx) (q : dot_S1024x256_S256x64_S1024x64_1_0_0_1_n_n.contr.Idx) :
    (dot_S1024x256_S256x64_S1024x64_1_0_0_1_n_n.rhsIdx i q 0).val = (q ⟨0, by decide⟩).val :=
  dot_S1024x256_S256x64_S1024x64_1_0_0_1_n_n.rhsIdx_val_of_single rfl i q
theorem rhs_axis1 (i : S1024x64.Idx) (q : dot_S1024x256_S256x64_S1024x64_1_0_0_1_n_n.contr.Idx) :
    (dot_S1024x256_S256x64_S1024x64_1_0_0_1_n_n.rhsIdx i q 1).val = (i 1).val := by
  unfold DotDims.rhsIdx
  rw [dif_neg (show ¬(1 : Fin S256x64.rank) ∈ dot_S1024x256_S256x64_S1024x64_1_0_0_1_n_n.rhsBatch by decide), dif_pos (show (1 : Fin S256x64.rank) ∈ dot_S1024x256_S256x64_S1024x64_1_0_0_1_n_n.rhsNonContracting by decide)]
  rfl

/-- A block product into the zero accumulator, at row `p` and column `e` of the block: the sum over the 256 features of the
    block's row entry times the matrix's column entry. The element formats play no part at the exact values. -/
theorem blockProduct_apply {φ₁ φ₂ : FTy} (prec : Option ContractPrecision) (a : FVec Ideal S1024x256 φ₁) (b : FVec Ideal S256x64 φ₂)
    (p : Fin 1024) (e : Fin 64) :
    FloatOps.matmul dot_S1024x256_S256x64_S1024x64_1_0_0_1_n_n prec a b (constant S1024x64 .f32 0x00000000#32) (ix2 p e)
      = ∑ k : Fin 256, a (ix2 p k) * b (ix2 k e) := by
  rw [Ideal.matmul_constant_zero_apply, ← Equiv.sum_comp (ValueIdx.contrEquiv1 dot_S1024x256_S256x64_S1024x64_1_0_0_1_n_n 256 rfl rfl).symm]
  refine Finset.sum_congr rfl fun k _ => ?_
  have hk := ValueIdx.contrEquiv1_symm_val dot_S1024x256_S256x64_S1024x64_1_0_0_1_n_n 256 rfl rfl k
  have el : dot_S1024x256_S256x64_S1024x64_1_0_0_1_n_n.lhsIdx (ix2 p e) ((ValueIdx.contrEquiv1 dot_S1024x256_S256x64_S1024x64_1_0_0_1_n_n 256 rfl rfl).symm k) = ix2 p k := funext fun a => Fin.ext (by
    match a with
    | ⟨0, _⟩ => exact lhs_axis0 _ _
    | ⟨1, _⟩ => exact (lhs_axis1 _ _).trans hk)
  have er : dot_S1024x256_S256x64_S1024x64_1_0_0_1_n_n.rhsIdx (ix2 p e) ((ValueIdx.contrEquiv1 dot_S1024x256_S256x64_S1024x64_1_0_0_1_n_n 256 rfl rfl).symm k) = ix2 k e := funext fun a => Fin.ext (by
    match a with
    | ⟨0, _⟩ => exact (rhs_axis0 _ _).trans hk
    | ⟨1, _⟩ => exact rhs_axis1 _ _)
  rw [el, er]

/-- The three stored values of the first kernel, entry by entry: each is the block product of the row block with one weight
    matrix (the narrowing to sixteen bits on the value path is the identity at the exact values). -/
theorem queryPayload_apply (x0 : Vec Ideal S1024x256 .f32) (x1 : Vec Ideal S256x64 .f32) (p : Fin 1024) (e : Fin 64) :
    k0_pay1 (F := Ideal) x0 x1 (ix2 p e) = ∑ k : Fin 256, x0 (ix2 p k) * x1 (ix2 k e) :=
  blockProduct_apply (some .fp32) x0 x1 p e
theorem keyPayload_apply (x0 : Vec Ideal S1024x256 .f32) (x2 : Vec Ideal S256x64 .f32) (p : Fin 1024) (e : Fin 64) :
    k0_pay2 (F := Ideal) x0 x2 (ix2 p e) = ∑ k : Fin 256, x0 (ix2 p k) * x2 (ix2 k e) :=
  blockProduct_apply (some .fp32) x0 x2 p e
theorem valuePayload_apply (x0 : Vec Ideal S1024x256 .f32) (x3 : Vec Ideal S256x64 .f32) (p : Fin 1024) (e : Fin 64) :
    k0_pay3 (F := Ideal) x0 x3 (ix2 p e) = ∑ k : Fin 256, x0 (ix2 p k) * x3 (ix2 k e) :=
  blockProduct_apply (φ₁ := .bf16) (φ₂ := .bf16) none x0 x3 p e

/-- The payloads at any index of the block, its coordinates read off the index. -/
theorem queryPayload_at (x0 : Vec Ideal S1024x256 .f32) (x1 : Vec Ideal S256x64 .f32) (y : S1024x64.Idx) :
    k0_pay1 (F := Ideal) x0 x1 y = ∑ k : Fin 256, x0 (ix2 ⟨(y 0).val, (y 0).isLt⟩ k) * x1 (ix2 k ⟨(y 1).val, (y 1).isLt⟩) := by
  obtain ⟨p, e, rfl⟩ : ∃ (p : Fin 1024) (e : Fin 64), y = ix2 p e := ⟨y 0, y 1, eq_ix2 y⟩
  exact queryPayload_apply x0 x1 p e
theorem keyPayload_at (x0 : Vec Ideal S1024x256 .f32) (x2 : Vec Ideal S256x64 .f32) (y : S1024x64.Idx) :
    k0_pay2 (F := Ideal) x0 x2 y = ∑ k : Fin 256, x0 (ix2 ⟨(y 0).val, (y 0).isLt⟩ k) * x2 (ix2 k ⟨(y 1).val, (y 1).isLt⟩) := by
  obtain ⟨p, e, rfl⟩ : ∃ (p : Fin 1024) (e : Fin 64), y = ix2 p e := ⟨y 0, y 1, eq_ix2 y⟩
  exact keyPayload_apply x0 x2 p e
theorem valuePayload_at (x0 : Vec Ideal S1024x256 .f32) (x3 : Vec Ideal S256x64 .f32) (y : S1024x64.Idx) :
    k0_pay3 (F := Ideal) x0 x3 y = ∑ k : Fin 256, x0 (ix2 ⟨(y 0).val, (y 0).isLt⟩ k) * x3 (ix2 k ⟨(y 1).val, (y 1).isLt⟩) := by
  obtain ⟨p, e, rfl⟩ : ∃ (p : Fin 1024) (e : Fin 64), y = ix2 p e := ⟨y 0, y 1, eq_ix2 y⟩
  exact valuePayload_apply x0 x3 p e

/-! ## The first region's blocks: row block `t` of `x` and of each output, the weight matrices whole -/

/-- The printed index maps over the eight grid points: the row-blocked windows sit at block row `t`, the weights at the origin. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

end Cert.KernelIdeal.Projections

end
-- ==== Proof.Region0Query.lean ====
import proofs.«405609_j35665408426211_3_alg».proof.Proof.Region0

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Projections

open Cert.KernelIdeal Cert.KernelIdeal.Gen Cert.Spec

variable (V : (c : Dev nD) → (b : Ref sig .tc) → Buf (Elt Ideal) ((c : Thread nD τ).loc b))

/-! ## The query window: rows `1024 t … 1024 t + 1023` of `x · W_q` at point `t` -/

/-- What point `t` writes back through window 4 is block `t` of the query projection of the arrays the region finds. -/
theorem flushed_query (c : Dev nD) (t : Fin cfg0.N) :
    (dat0 V c).flushed 4 t
      = ((cfg0.win 4).blk t).view.read (Elt Ideal) (projArr (V c main_arg0) (V c main_arg1)) := by
  show (cfg0.win 4).cut (grid0.coords t) ((dat0 V c).after 4 t) = _
  rw [after0_4]
  unfold out0_4
  rw [View.canon_unit_zero hz]
  simp only [View.ld_unit_zero (S := S1024x256) hz, View.ld_unit_zero (S := S256x64) hz]
  funext y
  show k0_pay1 (F := Ideal) (iblk0 V c 0 t) (iblk0 V c 1 t) y
    = projArr (V c main_arg0) (V c main_arg1) (((cfg0.win 4).blk t).view.emb y)
  refine (queryPayload_at (iblk0 V c 0 t) (iblk0 V c 1 t) y).trans ?_
  unfold projArr proj
  obtain ⟨e00, e01, e10, e11, e20, e21, e30, e31, e40, e41, e50, e51, e60, e61⟩ := idx_facts t
  have hy0 : (y 0).val < 1024 := (y 0).isLt
  have hy1 : (y 1).val < 64 := (y 1).isLt
  refine Finset.sum_congr rfl fun k _ => ?_
  have hl : (iblk0 V c 0 t : Vec Ideal S1024x256 .f32) (ix2 ⟨(y 0).val, (y 0).isLt⟩ k)
      = V c main_arg0 (ix2 ⟨((((cfg0.win 4).blk t).view.emb y) 0).val, ((((cfg0.win 4).blk t).view.emb y) 0).isLt⟩ k) := by
    show V c main_arg0 (((cfg0.win 0).blk t).view.emb (ix2 ⟨(y 0).val, (y 0).isLt⟩ k)) = _
    refine congrArg (V c main_arg0) (funext fun a => Fin.ext ?_)
    match a with
    | ⟨0, _⟩ => show win0_0.index t (0 : Fin 2) * 1024 + 1 * (y 0).val = win0_4.index t (0 : Fin 2) * 1024 + 1 * (y 0).val; omega
    | ⟨1, _⟩ => show win0_0.index t (1 : Fin 2) * 256 + 1 * k.val = k.val; omega
  have hr : (iblk0 V c 1 t : Vec Ideal S256x64 .f32) (ix2 k ⟨(y 1).val, (y 1).isLt⟩)
      = V c main_arg1 (ix2 k ⟨((((cfg0.win 4).blk t).view.emb y) 1).val, ((((cfg0.win 4).blk t).view.emb y) 1).isLt⟩) := by
    show V c main_arg1 (((cfg0.win 1).blk t).view.emb (ix2 k ⟨(y 1).val, (y 1).isLt⟩)) = _
    refine congrArg (V c main_arg1) (funext fun a => Fin.ext ?_)
    match a with
    | ⟨0, _⟩ => show win0_1.index t (0 : Fin 2) * 256 + 1 * k.val = k.val; omega
    | ⟨1, _⟩ => show win0_1.index t (1 : Fin 2) * 64 + 1 * (y 1).val = win0_4.index t (1 : Fin 2) * 64 + 1 * (y 1).val; omega
  rw [hl, hr]

/-- An index of the query array lies in point `t`'s block iff each coordinate lies in the block's range on its axis. -/
theorem mem_block_query (t : Fin cfg0.N) (i : S8192x64.Idx) :
    i ∈ ((cfg0.win 4).blk t).view.set ↔ ∀ a : Fin 2, win0_4.index t a * S1024x64.size a ≤ (i a).val ∧ (i a).val < win0_4.index t a * S1024x64.size a + S1024x64.size a := by
  show i ∈ ((View.whole main_v0_0).slice (win0_4.rect t)).set ↔ _
  rw [View.set_slice_whole, Rect.mem_set_unit]
  exact Iff.rfl

/-- Every row of the query array is in the block of the point that holds it: row `r` in point `r / 1024`. -/
theorem cover_query (i : S8192x64.Idx) :
    ∃ t : Fin cfg0.N, (cfg0.win 4).flush t = true ∧ i ∈ ((cfg0.win 4).blk t).view.set := by
  have hi0 : (i 0).val < 8192 := (i 0).isLt
  have hi1 : (i 1).val < 64 := (i 1).isLt
  have hN : cfg0.N = 8 := N_0
  obtain ⟨t, ht⟩ : ∃ t : Fin cfg0.N, t.val = (i 0).val / 1024 := ⟨⟨(i 0).val / 1024, by rw [hN]; omega⟩, rfl⟩
  obtain ⟨e00, e01, e10, e11, e20, e21, e30, e31, e40, e41, e50, e51, e60, e61⟩ := idx_facts t
  refine ⟨t, flush0_4 t, ?_⟩
  rw [mem_block_query]
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 64 ≤ (i 1).val ∧ (i 1).val < win0_4.index t (1 : Fin 2) * 64 + 64; omega

/-- After the first region the query array holds the query projection of the arrays the region found. -/
theorem query_array (c : Dev nD) :
    (dat0 V c).arrAt 4 cfg0.N = projArr (V c main_arg0) (V c main_arg1) :=
  (dat0 V c).arrAt_eq_of_cover 4 (projArr (V c main_arg0) (V c main_arg1)) (fun t _ => flushed_query V c t) (cover_query)

end Cert.KernelIdeal.Projections

end
-- ==== Proof.Region1.lean ====
import proofs.«405609_j35665408426211_3_alg».proof.Proof.Gen.KernelIdeal.Frame
import proofs.«405609_j35665408426211_3_alg».proof.Proof.Spec
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Attention

open Cert.KernelIdeal Cert.KernelIdeal.Gen Cert.Spec

variable (V : (c : Dev nD) → (b : Ref sig .tc) → Buf (Elt Ideal) ((c : Thread nD τ).loc b))

theorem hz : (![0, 0] : Fin 2 → Nat) = fun _ => 0 := funext fun a => by fin_cases a <;> rfl

/-- What the second kernel's body stores, entry by entry of its block: attention in the scaled-query arrangement over the
    loaded query block, the whole transposed key array and the whole value array. -/
def StoresScaledAttention : Prop :=
  ∀ (x0 : Vec Ideal S256x64 .f32) (x1 : Vec Ideal S64x8192 .f32) (x2 : Vec Ideal S8192x64 .bf16) (p : Fin 256) (d : Fin 64),
    k1_pay1 (F := Ideal) x0 x1 x2 (ix2 p d)
      = softScaled (fun e : Fin 64 => x0 (ix2 p e)) (fun (j : Fin 8192) (e : Fin 64) => x1 (ix2 e j))
          (fun j : Fin 8192 => x2 (ix2 j d))

/-- The same at any index of the block, its coordinates read off the index. -/
theorem payload_at (hpay : StoresScaledAttention) (x0 : Vec Ideal S256x64 .f32) (x1 : Vec Ideal S64x8192 .f32)
    (x2 : Vec Ideal S8192x64 .bf16) (y : S256x64.Idx) :
    k1_pay1 (F := Ideal) x0 x1 x2 y
      = softScaled (fun e : Fin 64 => x0 (ix2 (⟨(y 0).val, (y 0).isLt⟩ : Fin 256) e))
          (fun (j : Fin 8192) (e : Fin 64) => x1 (ix2 e j))
          (fun j : Fin 8192 => x2 (ix2 j (⟨(y 1).val, (y 1).isLt⟩ : Fin 64))) := by
  obtain ⟨p, d, rfl⟩ : ∃ (p : Fin 256) (d : Fin 64), y = ix2 p d := ⟨y 0, y 1, eq_ix2 y⟩
  exact hpay x0 x1 x2 p d

/-- The printed index maps over the 32 grid points: the query and output windows sit at block row `t`, the transposed keys and
    the values at the origin (each is one block, the whole array). -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point `t` writes back is block `t` (rows `256 t … 256 t + 255`) of the attention array of the three arrays the region finds. -/
theorem flushed_output (hpay : StoresScaledAttention) (c : Dev nD) (t : Fin cfg1.N) :
    (dat1 V c).flushed 3 t
      = ((cfg1.win 3).blk t).view.read (Elt Ideal) (attnArr (V c main_v0_0) (V c main_v1) (V c main_v0_2)) := by
  show (cfg1.win 3).cut (grid1.coords t) ((dat1 V c).after 3 t) = _
  rw [after1_3]
  unfold out1_3
  rw [View.canon_unit_zero hz]
  simp only [View.ld_unit_zero (S := S256x64) hz, View.ld_unit_zero (S := S64x8192) hz, View.ld_unit_zero (S := S8192x64) hz]
  funext y
  show k1_pay1 (F := Ideal) (iblk1 V c 0 t) (iblk1 V c 1 t) (iblk1 V c 2 t) y
    = attnArr (V c main_v0_0) (V c main_v1) (V c main_v0_2) (((cfg1.win 3).blk t).view.emb y)
  refine (payload_at hpay (iblk1 V c 0 t) (iblk1 V c 1 t) (iblk1 V c 2 t) y).trans ?_
  unfold attnArr
  obtain ⟨e00, e01, e10, e11, e20, e21, e30, e31⟩ := idx_facts t
  have hy0 : (y 0).val < 256 := (y 0).isLt
  have hy1 : (y 1).val < 64 := (y 1).isLt
  have hq : (fun e : Fin 64 => (iblk1 V c 0 t : Vec Ideal S256x64 .f32) (ix2 (⟨(y 0).val, (y 0).isLt⟩ : Fin 256) e))
      = fun e : Fin 64 => V c main_v0_0 (ix2 (⟨((((cfg1.win 3).blk t).view.emb y) 0).val, ((((cfg1.win 3).blk t).view.emb y) 0).isLt⟩ : Fin 8192) e) := by
    funext e
    show V c main_v0_0 (((cfg1.win 0).blk t).view.emb (ix2 (⟨(y 0).val, (y 0).isLt⟩ : Fin 256) e)) = _
    refine congrArg (V c main_v0_0) (funext fun a => Fin.ext ?_)
    match a with
    | ⟨0, _⟩ => show win1_0.index t (0 : Fin 2) * 256 + 1 * (y 0).val = win1_3.index t (0 : Fin 2) * 256 + 1 * (y 0).val; omega
    | ⟨1, _⟩ => show win1_0.index t (1 : Fin 2) * 64 + 1 * e.val = e.val; omega
  have hk : (fun (j : Fin 8192) (e : Fin 64) => (iblk1 V c 1 t : Vec Ideal S64x8192 .f32) (ix2 e j))
      = fun (j : Fin 8192) (e : Fin 64) => V c main_v1 (ix2 e j) := by
    funext j e
    show V c main_v1 (((cfg1.win 1).blk t).view.emb (ix2 e j)) = _
    refine congrArg (V c main_v1) (funext fun a => Fin.ext ?_)
    match a with
    | ⟨0, _⟩ => show win1_1.index t (0 : Fin 2) * 64 + 1 * e.val = e.val; omega
    | ⟨1, _⟩ => show win1_1.index t (1 : Fin 2) * 8192 + 1 * j.val = j.val; omega
  have hv : (fun j : Fin 8192 => (iblk1 V c 2 t : Vec Ideal S8192x64 .bf16) (ix2 j (⟨(y 1).val, (y 1).isLt⟩ : Fin 64)))
      = fun j : Fin 8192 => V c main_v0_2 (ix2 j (⟨((((cfg1.win 3).blk t).view.emb y) 1).val, ((((cfg1.win 3).blk t).view.emb y) 1).isLt⟩ : Fin 64)) := by
    funext j
    show V c main_v0_2 (((cfg1.win 2).blk t).view.emb (ix2 j (⟨(y 1).val, (y 1).isLt⟩ : Fin 64))) = _
    refine congrArg (V c main_v0_2) (funext fun a => Fin.ext ?_)
    match a with
    | ⟨0, _⟩ => show win1_2.index t (0 : Fin 2) * 8192 + 1 * j.val = j.val; omega
    | ⟨1, _⟩ => show win1_2.index t (1 : Fin 2) * 64 + 1 * (y 1).val = win1_3.index t (1 : Fin 2) * 64 + 1 * (y 1).val; omega
  rw [hq, hk, hv]

/-- An index of the output array lies in point `t`'s block iff each coordinate lies in the block's range on its axis. -/
theorem mem_block_output (t : Fin cfg1.N) (i : S8192x64.Idx) :
    i ∈ ((cfg1.win 3).blk t).view.set ↔ ∀ a : Fin 2, win1_3.index t a * S256x64.size a ≤ (i a).val ∧ (i a).val < win1_3.index t a * S256x64.size a + S256x64.size a := by
  show i ∈ ((View.whole main_v2).slice (win1_3.rect t)).set ↔ _
  rw [View.set_slice_whole, Rect.mem_set_unit]
  exact Iff.rfl

/-- Every row of the output is in the block of the point that holds it: row `r` in point `r / 256`. -/
theorem cover_output (i : S8192x64.Idx) :
    ∃ t : Fin cfg1.N, (cfg1.win 3).flush t = true ∧ i ∈ ((cfg1.win 3).blk t).view.set := by
  have hi0 : (i 0).val < 8192 := (i 0).isLt
  have hi1 : (i 1).val < 64 := (i 1).isLt
  have hN : cfg1.N = 32 := N_1
  obtain ⟨t, ht⟩ : ∃ t : Fin cfg1.N, t.val = (i 0).val / 256 := ⟨⟨(i 0).val / 256, by rw [hN]; omega⟩, rfl⟩
  obtain ⟨e00, e01, e10, e11, e20, e21, e30, e31⟩ := idx_facts t
  refine ⟨t, flush1_3 t, ?_⟩
  rw [mem_block_output]
  intro a
  match a with
  | ⟨0, _⟩ => show win1_3.index t (0 : Fin 2) * 256 ≤ (i 0).val ∧ (i 0).val < win1_3.index t (0 : Fin 2) * 256 + 256; omega
  | ⟨1, _⟩ => show win1_3.index t (1 : Fin 2) * 64 ≤ (i 1).val ∧ (i 1).val < win1_3.index t (1 : Fin 2) * 64 + 64; omega

/-- After the second region the output array holds the attention array of the query, transposed-key and value arrays the
    region found. -/
theorem output_array (hpay : StoresScaledAttention) (c : Dev nD) :
    (dat1 V c).arrAt 3 cfg1.N = attnArr (V c main_v0_0) (V c main_v1) (V c main_v0_2) :=
  (dat1 V c).arrAt_eq_of_cover 3 (attnArr (V c main_v0_0) (V c main_v1) (V c main_v0_2))
    (fun t _ => flushed_output V hpay c t) (cover_output)

end Cert.KernelIdeal.Attention

end
-- ==== Proof.KernelValue.lean ====
import proofs.«405609_j35665408426211_3_alg».proof.Proof.KernelRun
import proofs.«405609_j35665408426211_3_alg».proof.Proof.Region0Query
import proofs.«405609_j35665408426211_3_alg».proof.Proof.Region0Key
import proofs.«405609_j35665408426211_3_alg».proof.Proof.Region0Value
import proofs.«405609_j35665408426211_3_alg».proof.Proof.Region1
import Idealize.ShloMosaic.Lib.StableHlo.Run
import Idealize.ShloMosaic.Lib.Pipeline.Value

set_option maxRecDepth 16384

noncomputable section

open Idealize.ShloMosaic Idealize.ShloMosaic.TcCoe Idealize.SL.Sem Idealize.ShloMosaic.ValueIdx Idealize.ShloMosaic.StableHlo

namespace Cert.KernelIdeal.ResultValue

open Cert.KernelIdeal Cert.KernelIdeal.Gen Cert.Spec

variable (m : (ℓ : Loc nD τ sig) → Buf (Elt Ideal) ℓ) (ρ : Dev nD → PrngReg)

/-! ## The three projections after the first region -/

theorem queries (c : Dev nD) :
    V1 m ρ c main_v0_0 = projArr (m ((c : Thread nD τ).loc main_arg0)) (m ((c : Thread nD τ).loc main_arg1)) :=
  (W1_arr m ρ c 4).trans (Projections.query_array (V0 m ρ) c)
theorem keys (c : Dev nD) :
    V1 m ρ c main_v0_1 = projArr (m ((c : Thread nD τ).loc main_arg0)) (m ((c : Thread nD τ).loc main_arg2)) :=
  (W1_arr m ρ c 5).trans (Projections.key_array (V0 m ρ) c)
theorem values (c : Dev nD) :
    V1 m ρ c main_v0_2 = projArr (m ((c : Thread nD τ).loc main_arg0)) (m ((c : Thread nD τ).loc main_arg3)) :=
  (W1_arr m ρ c 6).trans (Projections.value_array (V0 m ρ) c)

/-! ## The transpose between the regions -/

/-- The one host operation writes the transposed keys and nothing else. -/
theorem kept_between (c : Dev nD) (b : Ref sig .tc) (hb : b ≠ main_v1) : V2 m ρ c b = V1 m ρ c b := by
  show StableHlo.after hostOps1 (W1 m ρ c) (Proc.devRef .tc b) = W1 m ρ c (Proc.devRef .tc b)
  simp only [after_cons, after_nil]
  rw [unary_result_ne]
  all_goals first | exact hb | rfl

theorem keys_transposed (c : Dev nD) :
    V2 m ρ c main_v1 = transpose S64x8192 [1, 0] (V1 m ρ c main_v0_1) transposes_S8192x64_S64x8192_1_0 := by
  show StableHlo.after hostOps1 (W1 m ρ c) (Proc.devRef .tc main_v1) = _
  after_results

/-! ## The result array -/

/-- The attention array over a transposed key array, entry by entry: the keys are read back by rows. -/
theorem attnArr_transposed_apply (Q K Vv : (⟨2, ![8192, 64]⟩ : Shape).Idx → EReal) (i : S8192x64.Idx) :
    attnArr Q (transpose S64x8192 [1, 0] K transposes_S8192x64_S64x8192_1_0) Vv i
      = softScaled (fun e : Fin 64 => Q (ix2 (⟨(i 0).val, (i 0).isLt⟩ : Fin 8192) e))
          (fun (j : Fin 8192) (e : Fin 64) => K (ix2 j e))
          (fun j : Fin 8192 => Vv (ix2 j (⟨(i 1).val, (i 1).isLt⟩ : Fin 64))) := by
  unfold attnArr
  have h : (fun (j : Fin 8192) (e : Fin 64) => transpose S64x8192 [1, 0] K transposes_S8192x64_S64x8192_1_0 (ix2 e j))
      = fun (j : Fin 8192) (e : Fin 64) => K (ix2 j e) := by
    funext j e
    exact transpose_apply [1, 0] K transposes_S8192x64_S64x8192_1_0 (ix2 e j) (ix2 j e) (fun b => match b with
      | ⟨0, _⟩ => rfl
      | ⟨1, _⟩ => rfl)
  rw [h]

/-- What the result buffer holds at the end: attention, in the scaled-query arrangement, of the three projections of the
    launch arguments. -/
theorem result_value (hpay : Attention.StoresScaledAttention) (c : Dev nD) (i : S8192x64.Idx) :
    (W3 m ρ c (Proc.devRef .tc main_v2) : S8192x64.Idx → EReal) i
      = softScaled
          (fun e : Fin 64 => proj (m ((c : Thread nD τ).loc main_arg0)) (m ((c : Thread nD τ).loc main_arg1)) (⟨(i 0).val, (i 0).isLt⟩ : Fin 8192) e)
          (fun (j : Fin 8192) (e : Fin 64) => proj (m ((c : Thread nD τ).loc main_arg0)) (m ((c : Thread nD τ).loc main_arg2)) j e)
          (fun j : Fin 8192 => proj (m ((c : Thread nD τ).loc main_arg0)) (m ((c : Thread nD τ).loc main_arg3)) j (⟨(i 1).val, (i 1).isLt⟩ : Fin 64)) := by
  have hW : W3 m ρ c (Proc.devRef .tc main_v2)
      = attnArr (projArr (m ((c : Thread nD τ).loc main_arg0)) (m ((c : Thread nD τ).loc main_arg1)))
          (transpose S64x8192 [1, 0] (projArr (m ((c : Thread nD τ).loc main_arg0)) (m ((c : Thread nD τ).loc main_arg2))) transposes_S8192x64_S64x8192_1_0)
          (projArr (m ((c : Thread nD τ).loc main_arg0)) (m ((c : Thread nD τ).loc main_arg3))) := by
    rw [RunValue.result_arr m ρ c, Attention.output_array (V2 m ρ) hpay c, kept_between m ρ c main_v0_0 (by decide),
      kept_between m ρ c main_v0_2 (by decide), keys_transposed, queries, keys, values]
  rw [hW, attnArr_transposed_apply]
  rfl

end Cert.KernelIdeal.ResultValue

end
-- ==== Proof.AttnMath.lean ====
import Idealize.ShloMosaic.PureOps.Ideal
import Idealize.ShloMosaic.PureOps.Ideal.Laws

noncomputable section

namespace Cert.AttnMath

open Idealize.ShloMosaic

theorem eighth : Ideal.ofBits .f32 0x3E000000#32 = ((1 / 8 : ℝ) : EReal) := by
  simp [Ideal.ofBits, Ideal.ieee, -EReal.coe_mul]; norm_num

theorem sqrt_sixty_four :
    Ideal.pow (Ideal.ofBits .f32 0x42800000#32) (Ideal.ofBits .f32 0x3F000000#32) = ((8 : ℝ) : EReal) := by
  have h1 : Ideal.ofBits .f32 0x42800000#32 = ((64 : ℝ) : EReal) := by
    simp [Ideal.ofBits, Ideal.ieee, -EReal.coe_mul]; norm_num
  have h2 : Ideal.ofBits .f32 0x3F000000#32 = ((1 / 2 : ℝ) : EReal) := by
    simp [Ideal.ofBits, Ideal.ieee, -EReal.coe_mul]; norm_num
  have h : Real.rpow 64 (1 / 2) = 8 := by
    rw [show (64 : ℝ) = 8 ^ (2 : ℝ) by norm_num, Real.rpow_eq_pow, ← Real.rpow_mul (by norm_num)]; norm_num
  rw [h1, h2, Ideal.pow_coe_coe, h]

theorem neg_inf : Ideal.ofBits .f32 0xFF800000#32 = (⊥ : EReal) := by
  simp [Ideal.ofBits, Ideal.ieee]

/-- A finite sum of coerced reals is the coercion of the real sum. -/
theorem coe_sum {K : Type} (s : Finset K) (f : K → ℝ) :
    ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

theorem dot_real {K : Type} [Fintype K] (a b : K → EReal) (ha : ∀ k, ∃ r : ℝ, a k = (r : EReal))
    (hb : ∀ k, ∃ r : ℝ, b k = (r : EReal)) : ∃ r : ℝ, ∑ k, a k * b k = (r : EReal) := by
  choose ar har using ha
  choose br hbr using hb
  refine ⟨∑ k, ar k * br k, ?_⟩
  rw [← coe_sum]
  refine Finset.sum_congr rfl (fun k _ => ?_)
  rw [har, hbr, EReal.coe_mul]

/-- The scaled score with the reciprocal folded into the left factor, over real data. -/
theorem score_kernel {E : Type} [Fintype E] (qr kr : E → ℝ) :
    ∑ e, ((qr e : ℝ) : EReal) * ((1 / 8 : ℝ) : EReal) * ((kr e : ℝ) : EReal)
      = (((∑ e, qr e * kr e) / 8 : ℝ) : EReal) := by
  rw [Finset.sum_div, ← coe_sum]
  refine Finset.sum_congr rfl (fun e _ => ?_)
  rw [← EReal.coe_mul, ← EReal.coe_mul]
  congr 1; ring

/-- The scaled score as a quotient by eight, over real data. -/
theorem score_ref {E : Type} [Fintype E] (qr kr : E → ℝ) :
    Ideal.div (∑ e, ((qr e : ℝ) : EReal) * ((kr e : ℝ) : EReal)) ((8 : ℝ) : EReal)
      = (((∑ e, qr e * kr e) / 8 : ℝ) : EReal) := by
  rw [Ideal.div_coe (by norm_num)]
  have h : ∑ e, ((qr e : ℝ) : EReal) * ((kr e : ℝ) : EReal) = ((∑ e, qr e * kr e : ℝ) : EReal) := by
    rw [← coe_sum]; exact Finset.sum_congr rfl (fun e _ => (EReal.coe_mul _ _).symm)
  rw [h, ← EReal.coe_mul]
  congr 1; ring

/-- The running maximum of finitely many reals, started at −∞, is one of them. -/
theorem fold_max_coe {J : Type} [Fintype J] [Nonempty J] (s : J → ℝ) :
    ∃ j0, (Finset.univ : Finset J).fold max (⊥ : EReal) (fun j => ((s j : ℝ) : EReal))
      = ((s j0 : ℝ) : EReal) := by
  obtain ⟨j0, _, h⟩ := Finset.exists_mem_eq_sup (Finset.univ : Finset J) Finset.univ_nonempty
    (fun j => ((s j : ℝ) : EReal))
  exact ⟨j0, h⟩

/-- Softmax-weighted sum over real scores and values: normalising the weighted sum once
    equals summing the normalised weights times the values. -/
theorem attn_real {J : Type} [Fintype J] [Nonempty J] (sr vr : J → ℝ) :
    Ideal.div
        (∑ j, Ideal.exp (((sr j : ℝ) : EReal)
            - (Finset.univ : Finset J).fold max (⊥ : EReal) (fun j' => ((sr j' : ℝ) : EReal)))
            * ((vr j : ℝ) : EReal))
        (∑ j, Ideal.exp (((sr j : ℝ) : EReal)
            - (Finset.univ : Finset J).fold max (⊥ : EReal) (fun j' => ((sr j' : ℝ) : EReal))))
      = ∑ j, Ideal.div
          (Ideal.exp (((sr j : ℝ) : EReal)
            - max (⊥ : EReal) ((Finset.univ : Finset J).fold max (⊥ : EReal)
                (fun j' => ((sr j' : ℝ) : EReal)))))
          (∑ j', Ideal.exp (((sr j' : ℝ) : EReal)
            - max (⊥ : EReal) ((Finset.univ : Finset J).fold max (⊥ : EReal)
                (fun j'' => ((sr j'' : ℝ) : EReal)))))
          * ((vr j : ℝ) : EReal) := by
  obtain ⟨j0, hm⟩ := fold_max_coe sr
  rw [hm, max_eq_right bot_le]
  have hexp : ∀ j, Ideal.exp (((sr j : ℝ) : EReal) - ((sr j0 : ℝ) : EReal))
      = ((Real.exp (sr j - sr j0) : ℝ) : EReal) := by
    intro j; rw [← EReal.coe_sub, Ideal.exp_coe]
  simp only [hexp]
  have hD : (∑ j, ((Real.exp (sr j - sr j0) : ℝ) : EReal))
      = ((∑ j, Real.exp (sr j - sr j0) : ℝ) : EReal) := coe_sum _ _
  have hpos : (0 : ℝ) < ∑ j, Real.exp (sr j - sr j0) :=
    Finset.sum_pos (fun j _ => Real.exp_pos _) Finset.univ_nonempty
  rw [hD]
  simp only [Ideal.div_coe hpos.ne', ← EReal.coe_mul]
  rw [coe_sum, coe_sum, ← EReal.coe_mul]
  congr 1
  rw [Finset.sum_mul]
  refine Finset.sum_congr rfl (fun j _ => ?_)
  ring

theorem attention_row {E J : Type} [Fintype E] [Fintype J] [Nonempty J]
    (q : E → EReal) (k : J → E → EReal) (v : J → EReal)
    (hq : ∀ e, ∃ r : ℝ, q e = (r : EReal)) (hk : ∀ j e, ∃ r : ℝ, k j e = (r : EReal))
    (hv : ∀ j, ∃ r : ℝ, v j = (r : EReal)) :
    Ideal.div
        (∑ j, Ideal.exp ((∑ e, q e * ((1 / 8 : ℝ) : EReal) * k j e)
            - (Finset.univ : Finset J).fold max (⊥ : EReal) (fun j' => ∑ e, q e * ((1 / 8 : ℝ) : EReal) * k j' e)) * v j)
        (∑ j, Ideal.exp ((∑ e, q e * ((1 / 8 : ℝ) : EReal) * k j e)
            - (Finset.univ : Finset J).fold max (⊥ : EReal) (fun j' => ∑ e, q e * ((1 / 8 : ℝ) : EReal) * k j' e)))
      = ∑ j, Ideal.div
          (Ideal.exp (Ideal.div (∑ e, q e * k j e) ((8 : ℝ) : EReal)
            - max (⊥ : EReal) ((Finset.univ : Finset J).fold max (⊥ : EReal)
                (fun j' => Ideal.div (∑ e, q e * k j' e) ((8 : ℝ) : EReal)))))
          (∑ j', Ideal.exp (Ideal.div (∑ e, q e * k j' e) ((8 : ℝ) : EReal)
            - max (⊥ : EReal) ((Finset.univ : Finset J).fold max (⊥ : EReal)
                (fun j'' => Ideal.div (∑ e, q e * k j'' e) ((8 : ℝ) : EReal))))) * v j := by
  choose qr hqr using hq
  choose kr hkr using hk
  choose vr hvr using hv
  simp only [hqr, hkr, hvr, score_kernel, score_ref]
  exact attn_real (fun j => (∑ e, qr e * kr j e) / 8) vr

end Cert.AttnMath

end
-- ==== Proof.AttentionPayload.lean ====
import proofs.«405609_j35665408426211_3_alg».proof.Proof.Gen.KernelIdeal.Skeleton
import proofs.«405609_j35665408426211_3_alg».proof.Proof.Spec
import proofs.«405609_j35665408426211_3_alg».proof.Proof.AttnMath
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx

namespace Cert.KernelIdeal.AttentionPayload

open Cert.KernelIdeal Cert.KernelIdeal.Gen Cert.Spec

/-! ## A vector as a column, and a column laid along every row -/

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The two contractions, entry by entry -/

theorem score_lhs_axis0 (i : S256x8192.Idx) (q : dot_S256x64_S64x8192_S256x8192_1_0_0_1_n_n.contr.Idx) :
    (dot_S256x64_S64x8192_S256x8192_1_0_0_1_n_n.lhsIdx i q 0).val = (i 0).val := by
  unfold DotDims.lhsIdx
  rw [dif_neg (show ¬(0 : Fin S256x64.rank) ∈ dot_S256x64_S64x8192_S256x8192_1_0_0_1_n_n.lhsBatch by decide), dif_pos (show (0 : Fin S256x64.rank) ∈ dot_S256x64_S64x8192_S256x8192_1_0_0_1_n_n.lhsNonContracting by decide)]
  rfl
theorem score_lhs_axis1 (i : S256x8192.Idx) (q : dot_S256x64_S64x8192_S256x8192_1_0_0_1_n_n.contr.Idx) :
    (dot_S256x64_S64x8192_S256x8192_1_0_0_1_n_n.lhsIdx i q 1).val = (q ⟨0, by decide⟩).val :=
  dot_S256x64_S64x8192_S256x8192_1_0_0_1_n_n.lhsIdx_val_of_single rfl i q
theorem score_rhs_axis0 (i : S256x8192.Idx) (q : dot_S256x64_S64x8192_S256x8192_1_0_0_1_n_n.contr.Idx) :
    (dot_S256x64_S64x8192_S256x8192_1_0_0_1_n_n.rhsIdx i q 0).val = (q ⟨0, by decide⟩).val :=
  dot_S256x64_S64x8192_S256x8192_1_0_0_1_n_n.rhsIdx_val_of_single rfl i q
theorem score_rhs_axis1 (i : S256x8192.Idx) (q : dot_S256x64_S64x8192_S256x8192_1_0_0_1_n_n.contr.Idx) :
    (dot_S256x64_S64x8192_S256x8192_1_0_0_1_n_n.rhsIdx i q 1).val = (i 1).val := by
  unfold DotDims.rhsIdx
  rw [dif_neg (show ¬(1 : Fin S64x8192.rank) ∈ dot_S256x64_S64x8192_S256x8192_1_0_0_1_n_n.rhsBatch by decide), dif_pos (show (1 : Fin S64x8192.rank) ∈ dot_S256x64_S64x8192_S256x8192_1_0_0_1_n_n.rhsNonContracting by decide)]
  rfl

/-- A 256 × 64 block against a 64 × 8192 matrix into the zero accumulator, at row `p` and column `c`: the sum over the 64
    shared coordinates of the row's entry times the column's entry. -/
theorem scoreProduct_apply {φ₁ φ₂ : FTy} (prec : Option ContractPrecision) (a : FVec Ideal S256x64 φ₁) (b : FVec Ideal S64x8192 φ₂)
    (p : Fin 256) (c : Fin 8192) :
    FloatOps.matmul dot_S256x64_S64x8192_S256x8192_1_0_0_1_n_n prec a b (constant S256x8192 .f32 0x00000000#32) (ix2 p c)
      = ∑ e : Fin 64, a (ix2 p e) * b (ix2 e c) := by
  rw [Ideal.matmul_constant_zero_apply, ← Equiv.sum_comp (ValueIdx.contrEquiv1 dot_S256x64_S64x8192_S256x8192_1_0_0_1_n_n 64 rfl rfl).symm]
  refine Finset.sum_congr rfl fun e _ => ?_
  have hk := ValueIdx.contrEquiv1_symm_val dot_S256x64_S64x8192_S256x8192_1_0_0_1_n_n 64 rfl rfl e
  have el : dot_S256x64_S64x8192_S256x8192_1_0_0_1_n_n.lhsIdx (ix2 p c) ((ValueIdx.contrEquiv1 dot_S256x64_S64x8192_S256x8192_1_0_0_1_n_n 64 rfl rfl).symm e) = ix2 p e := funext fun a => Fin.ext (by
    match a with
    | ⟨0, _⟩ => exact score_lhs_axis0 _ _
    | ⟨1, _⟩ => exact (score_lhs_axis1 _ _).trans hk)
  have er : dot_S256x64_S64x8192_S256x8192_1_0_0_1_n_n.rhsIdx (ix2 p c) ((ValueIdx.contrEquiv1 dot_S256x64_S64x8192_S256x8192_1_0_0_1_n_n 64 rfl rfl).symm e) = ix2 e c := funext fun a => Fin.ext (by
    match a with
    | ⟨0, _⟩ => exact (score_rhs_axis0 _ _).trans hk
    | ⟨1, _⟩ => exact score_rhs_axis1 _ _)
  rw [el, er]

theorem mix_lhs_axis0 (i : S256x64.Idx) (q : dot_S256x8192_S8192x64_S256x64_1_0_0_1_n_n.contr.Idx) :
    (dot_S256x8192_S8192x64_S256x64_1_0_0_1_n_n.lhsIdx i q 0).val = (i 0).val := by
  unfold DotDims.lhsIdx
  rw [dif_neg (show ¬(0 : Fin S256x8192.rank) ∈ dot_S256x8192_S8192x64_S256x64_1_0_0_1_n_n.lhsBatch by decide), dif_pos (show (0 : Fin S256x8192.rank) ∈ dot_S256x8192_S8192x64_S256x64_1_0_0_1_n_n.lhsNonContracting by decide)]
  rfl
theorem mix_lhs_axis1 (i : S256x64.Idx) (q : dot_S256x8192_S8192x64_S256x64_1_0_0_1_n_n.contr.Idx) :
    (dot_S256x8192_S8192x64_S256x64_1_0_0_1_n_n.lhsIdx i q 1).val = (q ⟨0, by decide⟩).val :=
  dot_S256x8192_S8192x64_S256x64_1_0_0_1_n_n.lhsIdx_val_of_single rfl i q
theorem mix_rhs_axis0 (i : S256x64.Idx) (q : dot_S256x8192_S8192x64_S256x64_1_0_0_1_n_n.contr.Idx) :
    (dot_S256x8192_S8192x64_S256x64_1_0_0_1_n_n.rhsIdx i q 0).val = (q ⟨0, by decide⟩).val :=
  dot_S256x8192_S8192x64_S256x64_1_0_0_1_n_n.rhsIdx_val_of_single rfl i q
theorem mix_rhs_axis1 (i : S256x64.Idx) (q : dot_S256x8192_S8192x64_S256x64_1_0_0_1_n_n.contr.Idx) :
    (dot_S256x8192_S8192x64_S256x64_1_0_0_1_n_n.rhsIdx i q 1).val = (i 1).val := by
  unfold DotDims.rhsIdx
  rw [dif_neg (show ¬(1 : Fin S8192x64.rank) ∈ dot_S256x8192_S8192x64_S256x64_1_0_0_1_n_n.rhsBatch by decide), dif_pos (show (1 : Fin S8192x64.rank) ∈ dot_S256x8192_S8192x64_S256x64_1_0_0_1_n_n.rhsNonContracting by decide)]
  rfl

/-- A 256 × 8192 block against an 8192 × 64 matrix into the zero accumulator, at row `p` and column `c`: the sum over the 8192
    shared coordinates. The element formats play no part at the exact values. -/
theorem mixProduct_apply {φ₁ φ₂ : FTy} (prec : Option ContractPrecision) (a : FVec Ideal S256x8192 φ₁) (b : FVec Ideal S8192x64 φ₂)
    (p : Fin 256) (c : Fin 64) :
    FloatOps.matmul dot_S256x8192_S8192x64_S256x64_1_0_0_1_n_n prec a b (constant S256x64 .f32 0x00000000#32) (ix2 p c)
      = ∑ j : Fin 8192, a (ix2 p j) * b (ix2 j c) := by
  rw [Ideal.matmul_constant_zero_apply, ← Equiv.sum_comp (ValueIdx.contrEquiv1 dot_S256x8192_S8192x64_S256x64_1_0_0_1_n_n 8192 rfl rfl).symm]
  refine Finset.sum_congr rfl fun j _ => ?_
  have hk := ValueIdx.contrEquiv1_symm_val dot_S256x8192_S8192x64_S256x64_1_0_0_1_n_n 8192 rfl rfl j
  have el : dot_S256x8192_S8192x64_S256x64_1_0_0_1_n_n.lhsIdx (ix2 p c) ((ValueIdx.contrEquiv1 dot_S256x8192_S8192x64_S256x64_1_0_0_1_n_n 8192 rfl rfl).symm j) = ix2 p j := funext fun a => Fin.ext (by
    match a with
    | ⟨0, _⟩ => exact mix_lhs_axis0 _ _
    | ⟨1, _⟩ => exact (mix_lhs_axis1 _ _).trans hk)
  have er : dot_S256x8192_S8192x64_S256x64_1_0_0_1_n_n.rhsIdx (ix2 p c) ((ValueIdx.contrEquiv1 dot_S256x8192_S8192x64_S256x64_1_0_0_1_n_n 8192 rfl rfl).symm j) = ix2 j c := funext fun a => Fin.ext (by
    match a with
    | ⟨0, _⟩ => exact (mix_rhs_axis0 _ _).trans hk
    | ⟨1, _⟩ => exact mix_rhs_axis1 _ _)
  rw [el, er]

/-! ## A row's sum and a row's maximum -/

/-- The sum along the rows of a 256 × 8192 array from the zero accumulator, at row `p`: the sum of the row's entries. -/
theorem rowSum_apply (s : FVec Ideal S256x8192 .f32) (p : Fin 256) :
    multiReduction (F := Ideal) .add [1] S256 s 0x00000000#32 reduces_S256x8192_S256 (.inl rfl) rfl (ix1 p)
      = ∑ j : Fin 8192, s (ix2 p j) := by
  refine (Ideal.multiReduction_add_single s 0x00000000#32 reduces_S256x8192_S256 (.inl rfl) rfl (ix1 p)).trans ?_
  exact Finset.sum_congr rfl fun j _ => congrArg s (funext fun a => Fin.ext (by
    match a with
    | ⟨0, _⟩ => rfl
    | ⟨1, _⟩ => rfl))

/-- The maximum along the rows of a 256 × 8192 array from `−∞`, at row `p`: the running maximum of the row's entries from `⊥`. -/
theorem rowMax_apply (s : FVec Ideal S256x8192 .f32) (p : Fin 256) :
    multiReduction (F := Ideal) .maximumf [1] S256 s 0xFF800000#32 reduces_S256x8192_S256 (.inl rfl) rfl (ix1 p)
      = (Finset.univ : Finset (Fin 8192)).fold max (⊥ : EReal) (fun j => s (ix2 p j)) := by
  refine (Ideal.multiReduction_maximumf_single s 0xFF800000#32 reduces_S256x8192_S256 (.inl rfl) rfl (ix1 p)).trans ?_
  have h0 : FloatOps.ofBits (F := Ideal) .f32 0xFF800000#32 = (⊥ : EReal) := Cert.AttnMath.neg_inf
  have hf : (s ∘ reduces_S256x8192_S256.lift (ix1 p)) = fun j : Fin 8192 => s (ix2 p j) :=
    funext fun j => congrArg s (funext fun a => Fin.ext (by
      match a with
      | ⟨0, _⟩ => rfl
      | ⟨1, _⟩ => rfl))
  rw [h0, hf]
  rfl

/-! ## The kernel's stages at an entry -/

/-- The scaled-query score block at row `p`, column `j`: the query row, each entry times 1/8, against column `j` of the
    transposed key array. -/
theorem score_apply (x0 : FVec Ideal S256x64 .f32) (x1 : FVec Ideal S64x8192 .f32) (p : Fin 256) (j : Fin 8192) :
    matmul dot_S256x64_S64x8192_S256x8192_1_0_0_1_n_n (some .fp32)
        (mulf (shapeCast S256x64 x0 shapeCasts_S256x64_S256x64) (broadcast S256x64 (Scalar.ofBits (F := Ideal) .f32 0x3E000000#32)))
        (shapeCast S64x8192 x1 shapeCasts_S64x8192_S64x8192) (constant S256x8192 .f32 0x00000000#32) (ix2 p j)
      = ∑ e : Fin 64, x0 (ix2 p e) * ((1 / 8 : ℝ) : EReal) * x1 (ix2 e j) := by
  refine (scoreProduct_apply (some .fp32) _ _ p j).trans ?_
  rw [shapeCast_self, shapeCast_self]
  refine Finset.sum_congr rfl fun e _ => ?_
  show x0 (ix2 p e) * Ideal.ofBits .f32 0x3E000000#32 * x1 (ix2 e j) = _
  rw [Cert.AttnMath.eighth]

/-- The row maximum of a score block, cast to a column and laid along the rows. -/
abbrev rowMaxBlock (sc : FVec Ideal S256x8192 .f32) : FVec Ideal S256x8192 .f32 :=
  broadcastTo S256x8192
    (shapeCast S256x1 (multiReduction (F := Ideal) .maximumf [1] S256 sc 0xFF800000#32 reduces_S256x8192_S256 (.inl rfl) rfl)
      shapeCasts_S256_S256x1) broadcasts_S256x1_S256x8192

/-- The unnormalised weights of a score block: `exp` of the score less its row's maximum. -/
abbrev weights (sc : FVec Ideal S256x8192 .f32) : FVec Ideal S256x8192 .f32 := exp (subf sc (rowMaxBlock sc))

theorem rowMaxBlock_apply (sc : FVec Ideal S256x8192 .f32) (p : Fin 256) (j : Fin 8192) :
    rowMaxBlock sc (ix2 p j) = (Finset.univ : Finset (Fin 8192)).fold max (⊥ : EReal) (fun j' => sc (ix2 p j')) := by
  refine (broadcastTo_a1_ab_apply _ _ p j).trans ?_
  refine (shapeCast_a_a1_apply _ _ p 0).trans ?_
  exact rowMax_apply sc p

theorem weights_apply (sc : FVec Ideal S256x8192 .f32) (p : Fin 256) (j : Fin 8192) :
    weights sc (ix2 p j)
      = Ideal.exp (sc (ix2 p j) - (Finset.univ : Finset (Fin 8192)).fold max (⊥ : EReal) (fun j' => sc (ix2 p j'))) := by
  show Ideal.exp (sc (ix2 p j) - rowMaxBlock sc (ix2 p j)) = _
  rw [rowMaxBlock_apply]

/-- From a score block on: the weights against the value array, divided by the weights' row sum laid along the rows. -/
theorem softmaxMix_apply (sc : FVec Ideal S256x8192 .f32) (x2 : FVec Ideal S8192x64 .bf16) (p : Fin 256) (d : Fin 64) :
    divf
        (matmul dot_S256x8192_S8192x64_S256x64_1_0_0_1_n_n none (truncf .bf16 (weights sc) bitsLt_bf16_f32)
          (shapeCast S8192x64 x2 shapeCasts_S8192x64_S8192x64) (constant S256x64 .f32 0x00000000#32))
        (broadcastTo S256x64
          (shapeCast S256x1 (multiReduction (F := Ideal) .add [1] S256 (weights sc) 0x00000000#32 reduces_S256x8192_S256 (.inl rfl) rfl)
            shapeCasts_S256_S256x1) broadcasts_S256x1_S256x64) (ix2 p d)
      = Ideal.div
          (∑ j : Fin 8192, Ideal.exp (sc (ix2 p j)
              - (Finset.univ : Finset (Fin 8192)).fold max (⊥ : EReal) (fun j' => sc (ix2 p j'))) * x2 (ix2 j d))
          (∑ j : Fin 8192, Ideal.exp (sc (ix2 p j)
              - (Finset.univ : Finset (Fin 8192)).fold max (⊥ : EReal) (fun j' => sc (ix2 p j')))) := by
  refine congrArg₂ Ideal.div ?_ ?_
  · refine (mixProduct_apply none _ _ p d).trans ?_
    rw [shapeCast_self]
    exact Finset.sum_congr rfl fun j _ => congrArg (· * x2 (ix2 j d)) (weights_apply sc p j)
  · refine (broadcastTo_a1_ab_apply _ _ p d).trans ?_
    refine (shapeCast_a_a1_apply _ _ p 0).trans ?_
    refine (rowSum_apply _ p).trans ?_
    exact Finset.sum_congr rfl fun j _ => weights_apply sc p j

/-- The second kernel's stored value at row `p`, column `d` of its block: the scaled-query arrangement of attention over the
    loaded query block, the whole transposed key array and the whole value array. -/
theorem payload_apply (x0 : Vec Ideal S256x64 .f32) (x1 : Vec Ideal S64x8192 .f32) (x2 : Vec Ideal S8192x64 .bf16)
    (p : Fin 256) (d : Fin 64) :
    k1_pay1 (F := Ideal) x0 x1 x2 (ix2 p d)
      = softScaled (fun e : Fin 64 => x0 (ix2 p e)) (fun (j : Fin 8192) (e : Fin 64) => x1 (ix2 e j))
          (fun j : Fin 8192 => x2 (ix2 j d)) := by
  unfold k1_pay1
  refine (softmaxMix_apply _ x2 p d).trans ?_
  unfold softScaled
  simp only [score_apply]

end Cert.KernelIdeal.AttentionPayload

end
-- ==== Proof.RefValue.lean ====
import proofs.«405609_j35665408426211_3_alg».proof.Proof.Gen.ReferenceIdeal.Read
import proofs.«405609_j35665408426211_3_alg».proof.Proof.Spec
import proofs.«405609_j35665408426211_3_alg».proof.Proof.AttnMath
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem Idealize.ShloMosaic.ValueIdx

namespace Cert.ReferenceIdeal.RefValue

open Cert.ReferenceIdeal Cert.ReferenceIdeal.Gen Cert.ReferenceIdeal.Read Cert.Spec

/-- The query projection, entry by entry. -/
theorem v0_at (x : (⟨S8192x256, .f32⟩ : BufTy).Contents (Elt Ideal)) (w : (⟨S256x64, .f32⟩ : BufTy).Contents (Elt Ideal)) (r : Fin 8192) (e : Fin 64) :
    val_main_v0 (F := Ideal) x w (ix2 r e) = proj x w r e := by
  rw [val_main_v0_apply]
  unfold proj
  refine Finset.sum_congr rfl fun k _ => ?_
  have el : lidx_main_v0 (ix2 r e) k = ix2 r k := funext fun a => by match a with | ⟨0, _⟩ => rfl | ⟨1, _⟩ => rfl
  have er : ridx_main_v0 (ix2 r e) k = ix2 k e := funext fun a => by match a with | ⟨0, _⟩ => rfl | ⟨1, _⟩ => rfl
  rw [el, er]

/-- The key projection, entry by entry. -/
theorem v1_at (x : (⟨S8192x256, .f32⟩ : BufTy).Contents (Elt Ideal)) (w : (⟨S256x64, .f32⟩ : BufTy).Contents (Elt Ideal)) (r : Fin 8192) (e : Fin 64) :
    val_main_v1 (F := Ideal) x w (ix2 r e) = proj x w r e := by
  rw [val_main_v1_apply]
  unfold proj
  refine Finset.sum_congr rfl fun k _ => ?_
  have el : lidx_main_v1 (ix2 r e) k = ix2 r k := funext fun a => by match a with | ⟨0, _⟩ => rfl | ⟨1, _⟩ => rfl
  have er : ridx_main_v1 (ix2 r e) k = ix2 k e := funext fun a => by match a with | ⟨0, _⟩ => rfl | ⟨1, _⟩ => rfl
  rw [el, er]

/-- The value projection, entry by entry. -/
theorem v2_at (x : (⟨S8192x256, .f32⟩ : BufTy).Contents (Elt Ideal)) (w : (⟨S256x64, .f32⟩ : BufTy).Contents (Elt Ideal)) (r : Fin 8192) (e : Fin 64) :
    val_main_v2 (F := Ideal) x w (ix2 r e) = proj x w r e := by
  rw [val_main_v2_apply]
  unfold proj
  refine Finset.sum_congr rfl fun k _ => ?_
  have el : lidx_main_v2 (ix2 r e) k = ix2 r k := funext fun a => by match a with | ⟨0, _⟩ => rfl | ⟨1, _⟩ => rfl
  have er : ridx_main_v2 (ix2 r e) k = ix2 k e := funext fun a => by match a with | ⟨0, _⟩ => rfl | ⟨1, _⟩ => rfl
  rw [el, er]

/-- The transposed key projection, entry by entry. -/
theorem v3_at (x : (⟨S8192x256, .f32⟩ : BufTy).Contents (Elt Ideal)) (w : (⟨S256x64, .f32⟩ : BufTy).Contents (Elt Ideal)) (e : Fin 64) (j : Fin 8192) :
    val_main_v3 (F := Ideal) x w (ix2 e j) = proj x w j e := by
  rw [val_main_v3_apply]
  have h : idx_main_v3 (ix2 e j) = ix2 j e := funext fun a => by match a with | ⟨0, _⟩ => rfl | ⟨1, _⟩ => rfl
  rw [h, v1_at]

/-- The scale: 64 to the power one half is 8. -/
theorem v5_val (i : S_.Idx) : val_main_v5 (F := Ideal) i = ((8 : ℝ) : EReal) := by
  rw [val_main_v5_apply, val_main_cst_apply, val_main_cst_0_apply]
  exact Cert.AttnMath.sqrt_sixty_four

/-- The scaled scores: the dot product of a query row with a key row, divided by 8. -/
theorem v7_at (x : (⟨S8192x256, .f32⟩ : BufTy).Contents (Elt Ideal)) (wq : (⟨S256x64, .f32⟩ : BufTy).Contents (Elt Ideal)) (wk : (⟨S256x64, .f32⟩ : BufTy).Contents (Elt Ideal)) (r j : Fin 8192) :
    val_main_v7 (F := Ideal) x wq wk (ix2 r j)
      = Ideal.div (∑ e : Fin 64, proj x wq r e * proj x wk j e) ((8 : ℝ) : EReal) := by
  rw [val_main_v7_apply, Ideal.hostDivf_def, val_main_v6_apply, v5_val, val_main_v4_apply]
  congr 1
  refine Finset.sum_congr rfl fun e _ => ?_
  have el : lidx_main_v4 (ix2 r j) e = ix2 r e := funext fun a => by match a with | ⟨0, _⟩ => rfl | ⟨1, _⟩ => rfl
  have er : ridx_main_v4 (ix2 r j) e = ix2 e j := funext fun a => by match a with | ⟨0, _⟩ => rfl | ⟨1, _⟩ => rfl
  rw [el, er, v0_at, v3_at]

/-- The row maximum of the scores, started at −∞. -/
theorem v8_at (x : (⟨S8192x256, .f32⟩ : BufTy).Contents (Elt Ideal)) (wq : (⟨S256x64, .f32⟩ : BufTy).Contents (Elt Ideal)) (wk : (⟨S256x64, .f32⟩ : BufTy).Contents (Elt Ideal)) (r : Fin 8192) :
    val_main_v8 (F := Ideal) x wq wk (ix1 r)
      = (Finset.univ : Finset (Fin 8192)).fold max (⊥ : EReal)
          (fun j => val_main_v7 (F := Ideal) x wq wk (ix2 r j)) := by
  have h : S8192x8192.Reduces [1] S8192 := by decide
  unfold val_main_v8
  refine Eq.trans (Host.reduce_eq_fold_single (FloatOps.maximumf (F := Ideal) (φ := .f32))
    (val_main_v7 (F := Ideal) x wq wk) (val_main_cst_1 (F := Ideal)) reducesTo_S8192x8192_S8192_d1 h h_S_ (ix1 r)) ?_
  have hb : val_main_cst_1 (F := Ideal) (Shape.Idx.first h_S_) = (⊥ : EReal) := Cert.AttnMath.neg_inf
  rw [hb]
  exact Finset.fold_congr (fun j _ => congrArg (val_main_v7 (F := Ideal) x wq wk)
    (funext fun a => Fin.ext (by match a with | ⟨0, _⟩ => rfl | ⟨1, _⟩ => rfl)))

/-- The row maximum taken once more against −∞. -/
theorem v10_at (x : (⟨S8192x256, .f32⟩ : BufTy).Contents (Elt Ideal)) (wq : (⟨S256x64, .f32⟩ : BufTy).Contents (Elt Ideal)) (wk : (⟨S256x64, .f32⟩ : BufTy).Contents (Elt Ideal)) (r : Fin 8192) :
    val_main_v10 (F := Ideal) x wq wk (ix1 r)
      = max (⊥ : EReal) ((Finset.univ : Finset (Fin 8192)).fold max (⊥ : EReal)
          (fun j => val_main_v7 (F := Ideal) x wq wk (ix2 r j))) := by
  rw [val_main_v10_apply, Ideal.maximumf_def, val_main_v9_apply, val_main_cst_2_apply, v8_at]
  rw [show FloatOps.ofBits (F := Ideal) .f32 0xFF800000#32 = (⊥ : EReal) from Cert.AttnMath.neg_inf]

/-- The unnormalized weights: the exponential of a score less its row's maximum. -/
theorem v14_at (x : (⟨S8192x256, .f32⟩ : BufTy).Contents (Elt Ideal)) (wq : (⟨S256x64, .f32⟩ : BufTy).Contents (Elt Ideal)) (wk : (⟨S256x64, .f32⟩ : BufTy).Contents (Elt Ideal)) (r j : Fin 8192) :
    val_main_v14 (F := Ideal) x wq wk (ix2 r j)
      = Ideal.exp (val_main_v7 (F := Ideal) x wq wk (ix2 r j) - val_main_v10 (F := Ideal) x wq wk (ix1 r)) := by
  rw [val_main_v14_apply, Ideal.hostUnary_exp_def, val_main_v13_apply, Ideal.subf_def, val_main_v12_apply,
    val_main_v11_apply]
  have h : idx_main_v11 (idx_main_v12 (ix2 r j)) = ix1 r := funext fun a => by match a with | ⟨0, _⟩ => rfl
  rw [h]

/-- The row sums of the weights. -/
theorem v15_at (x : (⟨S8192x256, .f32⟩ : BufTy).Contents (Elt Ideal)) (wq : (⟨S256x64, .f32⟩ : BufTy).Contents (Elt Ideal)) (wk : (⟨S256x64, .f32⟩ : BufTy).Contents (Elt Ideal)) (r : Fin 8192) :
    val_main_v15 (F := Ideal) x wq wk (ix1 r) = ∑ j : Fin 8192, val_main_v14 (F := Ideal) x wq wk (ix2 r j) := by
  rw [val_main_v15_apply, val_main_cst_3_apply, Ideal.ofBits_def, Ideal.ofBits_zero_f32, zero_add]
  refine Finset.sum_congr rfl fun j _ => ?_
  exact congrArg (val_main_v14 (F := Ideal) x wq wk) (funext fun a => by match a with | ⟨0, _⟩ => rfl | ⟨1, _⟩ => rfl)

/-- The normalized weights. -/
theorem v18_at (x : (⟨S8192x256, .f32⟩ : BufTy).Contents (Elt Ideal)) (wq : (⟨S256x64, .f32⟩ : BufTy).Contents (Elt Ideal)) (wk : (⟨S256x64, .f32⟩ : BufTy).Contents (Elt Ideal)) (r j : Fin 8192) :
    val_main_v18 (F := Ideal) x wq wk (ix2 r j)
      = Ideal.div (val_main_v14 (F := Ideal) x wq wk (ix2 r j)) (val_main_v15 (F := Ideal) x wq wk (ix1 r)) := by
  rw [val_main_v18_apply, Ideal.hostDivf_def, val_main_v17_apply, val_main_v16_apply]
  have h : idx_main_v16 (idx_main_v17 (ix2 r j)) = ix1 r := funext fun a => by match a with | ⟨0, _⟩ => rfl
  rw [h]

/-- The reference's result, entry by entry: the normalized-weights arrangement of attention over the three projections. -/
theorem result_apply (x : (⟨S8192x256, .f32⟩ : BufTy).Contents (Elt Ideal)) (wq wk wv : (⟨S256x64, .f32⟩ : BufTy).Contents (Elt Ideal))
    (i : S8192x64.Idx) :
    val_main_v19 (F := Ideal) x wq wk wv i
      = softNormalized (fun e : Fin 64 => proj x wq (⟨(i 0).val, (i 0).isLt⟩ : Fin 8192) e)
          (fun (j : Fin 8192) (e : Fin 64) => proj x wk j e)
          (fun j : Fin 8192 => proj x wv j (⟨(i 1).val, (i 1).isLt⟩ : Fin 64)) := by
  obtain ⟨r, d, rfl⟩ : ∃ (r : Fin 8192) (d : Fin 64), i = ix2 r d := ⟨i 0, i 1, eq_ix2 i⟩
  rw [val_main_v19_apply]
  unfold softNormalized
  refine Finset.sum_congr rfl fun j _ => ?_
  have el : lidx_main_v19 (ix2 r d) j = ix2 r j := funext fun a => by match a with | ⟨0, _⟩ => rfl | ⟨1, _⟩ => rfl
  have er : ridx_main_v19 (ix2 r d) j = ix2 j d := funext fun a => by match a with | ⟨0, _⟩ => rfl | ⟨1, _⟩ => rfl
  rw [el, er, v18_at, v2_at]
  simp only [v15_at, v14_at, v10_at, v7_at]

end Cert.ReferenceIdeal.RefValue

end
-- ==== Proof.FiniteInputs.lean ====
import proofs.«405609_j35665408426211_3_alg».proof.Pre_finite_inputs
import Idealize.ShloMosaic.PureOps.Ideal
import Idealize.ShloMosaic.Lib.ReduceAll

noncomputable section

namespace Cert.FiniteInputs

open Idealize.ShloMosaic Cert.Pre_finite_inputs

/-- The rank-0 shape has one index. -/
instance subsingleton_S_Idx : Subsingleton S_.Idx := ⟨fun a b => funext fun d => d.elim0⟩

/-- The f32 pattern `0x7F800000` denotes `+∞`. -/
theorem ofBits_inf : Ideal.ofBits .f32 0x7F800000#32 = ⊤ := by simp [Ideal.ofBits, Ideal.ieee]

/-- On one value: `|a| < +∞` holds only of a real number (for `±∞` the absolute value `max a (-a)` is `⊤`). -/
theorem real_of_abs_lt_top (a : EReal) (h : Ideal.cmp .olt (max a (-a)) ⊤ = 1#1) : ∃ r : ℝ, a = (r : EReal) := by
  induction a using EReal.rec with
  | bot => simp [Ideal.cmp] at h
  | top => simp [Ideal.cmp] at h
  | coe r => exact ⟨r, rfl⟩

/-- The conjunction of `|x i| < +∞` over all entries of any shape: when the reduce by `and` into the rank-0 shape is 1,
    every entry of `x` is real. -/
theorem real_of_all {s : Shape} {axes : List (Fin s.rank)} (hb : S_.BroadcastsInDim s (![] : Fin 0 → Fin s.rank))
    (hr : s.ReducesTo axes S_) (hu : 0 < S_.numel) (x : FVec Ideal s .f32) (init : IVec S_ 1) (j : S_.Idx)
    (e : Host.reduce IntOp.andi
        (cmpf .olt (Host.absf x) (broadcastInDim s ![] hb (constant (F := Ideal) S_ .f32 0x7F800000#32))) init hr hu j = 1#1)
    (i : s.Idx) : ∃ r : ℝ, x i = (r : EReal) := by
  have h1 := Host.reduce_andi_all _ init hr hu j e i
  have h2 : Ideal.cmp .olt (max (x i) (-(x i))) (Ideal.ofBits .f32 0x7F800000#32) = 1#1 := h1
  rw [ofBits_inf] at h2
  exact real_of_abs_lt_top (x i) h2

theorem real_of_pre [Cert.Pre_finite_inputs.Facts] (x : FVec Ideal S8192x256 .f32) (wq wk wv : FVec Ideal S256x64 .f32)
    (h : Cert.Pre_finite_inputs.fn (F := Ideal) x wq wk wv = fun _ => 1#1) :
    (∀ i, ∃ r : ℝ, x i = (r : EReal)) ∧ (∀ i, ∃ r : ℝ, wq i = (r : EReal))
      ∧ (∀ i, ∃ r : ℝ, wk i = (r : EReal)) ∧ (∀ i, ∃ r : ℝ, wv i = (r : EReal)) := by
  have h0 := congrFun h (fun a => a.elim0)
  dsimp only [Cert.Pre_finite_inputs.fn, Cert.Pre_finite_inputs.fn_part1, andi] at h0
  obtain ⟨h123, h4⟩ := IntOp.andi_eq_one.1 h0
  obtain ⟨h12, h3⟩ := IntOp.andi_eq_one.1 h123
  obtain ⟨h1, h2⟩ := IntOp.andi_eq_one.1 h12
  exact ⟨real_of_all _ _ _ x _ _ h1, real_of_all _ _ _ wq _ _ h2, real_of_all _ _ _ wk _ _ h3,
    real_of_all _ _ _ wv _ _ h4⟩

end Cert.FiniteInputs

end
-- ==== Proof.lean ====
/- The certificate of the two-kernel attention program against its jnp reference, over the extended reals.

   The program: a first kernel projects the 8192 × 256 input onto queries, keys and values (`x · W_q`, `x · W_k`, `x · W_v`,
   eight row blocks of 1024), the host transposes the keys, and a second kernel, on 32 blocks of 256 query rows, scales the
   query block by 1/8, takes its scores against all keys, subtracts each row's maximum, exponentiates, and divides the
   exp-weighted sum of the value rows ONCE by the row's sum of exponentials. The reference divides the scores by `64 ^ (1/2)`,
   takes the row maximum once more against `−∞`, and divides every weight by the row's sum BEFORE the product with the values.

   The frames of the two kernel programs are the generated ones; the reference's is its generated run with the result dropped.
   No operation was rewritten when the kernel was idealized, so `preserves` is trivial. For `algebraic`: the kernel program's run
   is taken once more with the result array kept in the post (KernelRun), the array is read entry by entry as `softScaled` of the
   three projections (Region0…, Region1, AttentionPayload, KernelValue), the reference's result as `softNormalized` of the same
   projections (RefValue), and the two arrangements agree on real data (AttnMath.attention_row): the scores agree because
   `(q · 1/8) · k = (q · k) / 8` on reals and `64 ^ (1/2) = 8`; the maxima agree because `max ⊥ M = M`; the weights are
   positive reals, so dividing the sum once is dividing each term. The data are real because the inputs are finite
   (FiniteInputs) and a finite sum of products of reals is real. -/
import proofs.«405609_j35665408426211_3_alg».proof.Defs
import proofs.«405609_j35665408426211_3_alg».proof.Proof.Gen.Kernel
import proofs.«405609_j35665408426211_3_alg».proof.Proof.Gen.Kernel.Frame
import proofs.«405609_j35665408426211_3_alg».proof.Proof.Gen.KernelIdeal
import proofs.«405609_j35665408426211_3_alg».proof.Proof.Gen.KernelIdeal.Frame
import proofs.«405609_j35665408426211_3_alg».proof.Proof.Gen.ReferenceIdeal
import proofs.«405609_j35665408426211_3_alg».proof.Proof.Gen.ReferenceIdeal.Run
import proofs.«405609_j35665408426211_3_alg».proof.Proof.Gen.ReferenceIdeal.Read
import proofs.«405609_j35665408426211_3_alg».proof.Proof.Gen.Pre_finite_inputs
import proofs.«405609_j35665408426211_3_alg».proof.Proof.KernelValue
import proofs.«405609_j35665408426211_3_alg».proof.Proof.AttentionPayload
import proofs.«405609_j35665408426211_3_alg».proof.Proof.RefValue
import proofs.«405609_j35665408426211_3_alg».proof.Proof.AttnMath
import proofs.«405609_j35665408426211_3_alg».proof.Proof.FiniteInputs
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- Every entry of a projection of finite inputs is a real number. -/
theorem proj_real (x : (⟨2, ![8192, 256]⟩ : Shape).Idx → EReal) (w : (⟨2, ![256, 64]⟩ : Shape).Idx → EReal)
    (hx : ∀ i, ∃ r : ℝ, x i = (r : EReal)) (hw : ∀ i, ∃ r : ℝ, w i = (r : EReal)) (r : Fin 8192) (e : Fin 64) :
    ∃ s : ℝ, Cert.Spec.proj x w r e = (s : EReal) :=
  Cert.AttnMath.dot_real (fun k : Fin 256 => x (ix2 r k)) (fun k : Fin 256 => w (ix2 k e)) (fun _ => hx _) (fun _ => hw _)

/-- The two programs end with equal results: both hold, entry by entry, attention of the three projections of the arguments,
    in two arrangements that agree on real data. -/
theorem algebraic : Cert.algebraic_KernelIdeal_ReferenceIdeal := by
  intro m ρ m' ρ' hpre hagree
  refine ⟨fun c => Cert.KernelIdeal.Gen.W3 m ρ c (Proc.devRef .tc Cert.KernelIdeal.main_v2),
    Cert.KernelIdeal.RunValue.run_result m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  refine (Cert.ReferenceIdeal.Read.val_main_v19_eq (F := Ideal) _ _ _ _).trans ?_
  obtain ⟨hx, hq, hk, hv⟩ := Cert.FiniteInputs.real_of_pre _ _ _ _ (hpre c)
  funext i
  rw [Cert.ReferenceIdeal.RefValue.result_apply]
  refine Eq.trans ?_ (Cert.KernelIdeal.ResultValue.result_value m ρ Cert.KernelIdeal.AttentionPayload.payload_apply c i).symm
  exact (Cert.AttnMath.attention_row _ _ _ (fun e => proj_real _ _ hx hq _ e) (fun j e => proj_real _ _ hx hk j e)
    (fun j => proj_real _ _ hx hv j _)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
